-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) (main_arg1 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  main_v3
-- ==== Kernel.lean ====
abbrev S65536x512 : Shape := ⟨2, ![65536, 512]⟩
abbrev S65536 : Shape := ⟨1, ![65536]⟩
abbrev S1024x2x32x512 : Shape := ⟨4, ![1024, 2, 32, 512]⟩
abbrev S1x1 : Shape := ⟨2, ![1, 1]⟩
abbrev S32x2x32x512 : Shape := ⟨4, ![32, 2, 32, 512]⟩
abbrev S32x1x32x512 : Shape := ⟨4, ![32, 1, 32, 512]⟩
abbrev S32x32x512 : Shape := ⟨3, ![32, 32, 512]⟩
abbrev S32x512 : Shape := ⟨2, ![32, 512]⟩
abbrev S32x1x512 : Shape := ⟨3, ![32, 1, 512]⟩
abbrev S32x32 : Shape := ⟨2, ![32, 32]⟩
abbrev S32 : Shape := ⟨1, ![32]⟩
abbrev S32x1 : Shape := ⟨2, ![32, 1]⟩
abbrev S1x32 : Shape := ⟨2, ![1, 32]⟩
abbrev S1 : Shape := ⟨1, ![1]⟩
abbrev S_ : Shape := ⟨0, ![]⟩

abbrev nBuf : Space → Nat
  | .hbm => 5
  | .vmem => 3
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1024x2x32x512, .f32⟩
  | .hbm, ⟨3, _⟩ => ⟨S1x1, .f32⟩
  | .hbm, ⟨4, _⟩ => ⟨S_, .f32⟩
  | .local _ .vmem, ⟨0, _⟩ => ⟨S32x2x32x512, .f32⟩
  | .local _ .vmem, ⟨1, _⟩ => ⟨S32x2x32x512, .f32⟩
  | .local _ .vmem, ⟨2, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S65536x512_S1024x2x32x512 : S65536x512.ShapeCasts S1024x2x32x512
  inb_S32x2x32x512_S32x1x32x512_0_0_0_0 : ∀ a, (![0, 0, 0, 0] : Fin 4 → Nat) a + S32x1x32x512.size a ≤ S32x2x32x512.size a
  h_S32x1x32x512 : 0 < S32x1x32x512.numel
  shapeCasts_S32x1x32x512_S32x32x512 : S32x1x32x512.ShapeCasts S32x32x512
  inb_S32x2x32x512_S32x1x32x512_0_1_0_0 : ∀ a, (![0, 1, 0, 0] : Fin 4 → Nat) a + S32x1x32x512.size a ≤ S32x2x32x512.size a
  reduces_S32x32x512_S32x512 : S32x32x512.Reduces [1] S32x512
  shapeCasts_S32x512_S32x1x512 : S32x512.ShapeCasts S32x1x512
  broadcasts_S32x1x512_S32x32x512 : S32x1x512.Broadcasts S32x32x512
  reduces_S32x32x512_S32x32 : S32x32x512.Reduces [2] S32x32
  reduces_S32x32_S32 : S32x32.Reduces [1] S32
  shapeCasts_S32_S32x1 : S32.ShapeCasts S32x1
  broadcasts_S32x1_S32x32 : S32x1.Broadcasts S32x32
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2x32x512.size a ≤ S1024x2x32x512.size a
  hwx0_0 : ∀ i : grid0.Coords, EltTy.bits .f32 = 32 ∨ (Rect.block (s := S1024x2x32x512) S32x2x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S32x2x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536 : Shape := ⟨1, ![65536]⟩
abbrev S1024x2x32x512 : Shape := ⟨4, ![1024, 2, 32, 512]⟩
abbrev S1024x1x32x512 : Shape := ⟨4, ![1024, 1, 32, 512]⟩
abbrev S1024x32x512 : Shape := ⟨3, ![1024, 32, 512]⟩
abbrev S_ : Shape := ⟨0, ![]⟩
abbrev S1024x512 : Shape := ⟨2, ![1024, 512]⟩
abbrev S1024x1x512 : Shape := ⟨3, ![1024, 1, 512]⟩
abbrev S1024x32 : Shape := ⟨2, ![1024, 32]⟩
abbrev S1024 : Shape := ⟨1, ![1024]⟩
abbrev S1024x1 : Shape := ⟨2, ![1024, 1]⟩

abbrev nBuf : Space → Nat
  | .hbm => 40
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1024x2x32x512, .f32⟩
  | .hbm, ⟨3, _⟩ => ⟨S1024x1x32x512, .f32⟩
  | .hbm, ⟨4, _⟩ => ⟨S1024x32x512, .f32⟩
  | .hbm, ⟨5, _⟩ => ⟨S1024x1x32x512, .f32⟩
  | .hbm, ⟨6, _⟩ => ⟨S1024x32x512, .f32⟩
  | .hbm, ⟨7, _⟩ => ⟨S_, .f32⟩
  | .hbm, ⟨8, _⟩ => ⟨S1024x512, .f32⟩
  | .hbm, ⟨9, _⟩ => ⟨S1024x1x512, .f32⟩
  | .hbm, ⟨10, _⟩ => ⟨S_, .f32⟩
  | .hbm, ⟨11, _⟩ => ⟨S1024x1x512, .f32⟩
  | .hbm, ⟨12, _⟩ => ⟨S1024x1x512, .f32⟩
  | .hbm, ⟨13, _⟩ => ⟨S1024x32x512, .f32⟩
  | .hbm, ⟨14, _⟩ => ⟨S1024x32x512, .f32⟩
  | .hbm, ⟨15, _⟩ => ⟨S1024x32x512, .f32⟩
  | .hbm, ⟨16, _⟩ => ⟨S_, .f32⟩
  | .hbm, ⟨17, _⟩ => ⟨S1024x32, .f32⟩
  | .hbm, ⟨18, _⟩ => ⟨S1024x32x512, .f32⟩
  | .hbm, ⟨19, _⟩ => ⟨S1024x32x512, .f32⟩
  | .hbm, ⟨20, _⟩ => ⟨S1024x32x512, .f32⟩
  | .hbm, ⟨21, _⟩ => ⟨S_, .f32⟩
  | .hbm, ⟨22, _⟩ => ⟨S1024x32, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S1024x32, .f32⟩
  | .hbm, ⟨27, _⟩ => ⟨S1024x32, .f32⟩
  | .hbm, ⟨28, _⟩ => ⟨S_, .f32⟩
  | .hbm, ⟨29, _⟩ => ⟨S1024x32, .f32⟩
  | .hbm, ⟨30, _⟩ => ⟨S1024x32, .f32⟩
  | .hbm, ⟨31, _⟩ => ⟨S_, .f32⟩
  | .hbm, ⟨32, _⟩ => ⟨S1024x32, .f32⟩
  | .hbm, ⟨33, _⟩ => ⟨S1024x32, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_call0_cst : Ref sig .tc := ⟨.hbm, 31, rfl⟩
abbrev main_call0_v0 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  shapeCasts_S65536x512_S1024x2x32x512 : S65536x512.ShapeCasts S1024x2x32x512
  slices_S1024x2x32x512_S1024x1x32x512_0_0_0_0 : S1024x2x32x512.Slices ![0, 0, 0, 0] S1024x1x32x512
  shapeCasts_S1024x1x32x512_S1024x32x512 : S1024x1x32x512.ShapeCasts S1024x32x512
  slices_S1024x2x32x512_S1024x1x32x512_0_1_0_0 : S1024x2x32x512.Slices ![0, 1, 0, 0] S1024x1x32x512
  reducesTo_S1024x32x512_S1024x512_d1 : S1024x32x512.ReducesTo [1] S1024x512
  h_S_ : 0 < S_.numel
  bcast_S1024x512_S1024x1x512_0_2 : S1024x512.BroadcastsInDim S1024x1x512 (![0, 2] : Fin 2 → Fin S1024x1x512.rank)
  bcast_S_S1024x1x512 : S_.BroadcastsInDim S1024x1x512 (![] : Fin 0 → Fin S1024x1x512.rank)
  bcast_S1024x1x512_S1024x32x512_0_1_2 : S1024x1x512.BroadcastsInDim S1024x32x512 (![0, 1, 2] : Fin 3 → Fin S1024x32x512.rank)
  reducesTo_S1024x32x512_S1024x32_d2 : S1024x32x512.ReducesTo [2] S1024x32
  reducesTo_S1024x32_S1024_d1 : S1024x32.ReducesTo [1] S1024
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S_S1024x32 : S_.BroadcastsInDim S1024x32 (![] : Fin 0 → Fin S1024x32.rank)
  reducesTo_S1024_S_d0 : S1024.ReducesTo [0] S_

variable [Facts₀]

class Facts : Prop extends Facts₀ where

variable [Facts]
-- ==== Proof.LossSpec.lean ====
/-
  The loss both programs compute, as one function on the extended reals.

  The argument array is read as 1024 classes; each class has a slab of 32 positive rows and a slab of 32
  negative rows, every row of 512 entries. For one class the ANCHOR is the mean of its positive rows, entry
  by entry (their sum divided by 32). Each positive row and each negative row has its squared distance to
  the anchor: the sum over the 512 entries of the squared difference. The class's loss is the sum, over the
  positive rows, of max(distance - nearest + margin, 0), where `nearest` is the least squared distance among
  the negative rows (a fold of `min` starting from +infinity). The result is the sum of the 1024 class losses
  divided by 1024.

  Two facts about sums on the extended reals, where addition is commutative and associative with no
  side condition, join a tiled evaluation to the whole one: summing the classes tile by tile (32 tiles of
  32 consecutive classes) is summing all 1024 of them, and a running total that starts at the first tile's
  sum and adds one tile's sum per step is, after the last step, the sum over all tiles.
-/
import Idealize.ShloMosaic.PureOps.Ideal
import Idealize.ShloMosaic.PureOps.Ideal.Laws
import Idealize.ShloMosaic.Lib.ValueIdx

noncomputable section

namespace Cert.LossSpec

open Idealize.ShloMosaic

/-- The float constants of the loss, each the extended real its f32 word denotes: 32, the margin, 1024, +infinity. -/
abbrev rowCount : EReal := Ideal.ofBits .f32 0x42000000#32
abbrev margin : EReal := Ideal.ofBits .f32 0x3E99999A#32
abbrev classCount : EReal := Ideal.ofBits .f32 0x44800000#32
abbrev farthest : EReal := Ideal.ofBits .f32 0x7F800000#32

/-- The anchor of a class: the mean of its positive rows at entry `d`. -/
def anchor (p : Fin 32 → Fin 512 → EReal) (d : Fin 512) : EReal :=
  Ideal.div (∑ s : Fin 32, p s d) rowCount

/-- The squared distance from the anchor to positive row `s`. -/
def posDist (p : Fin 32 → Fin 512 → EReal) (s : Fin 32) : EReal :=
  ∑ d : Fin 512, (anchor p d - p s d) * (anchor p d - p s d)

/-- The squared distance from negative row `s` to the anchor. -/
def negDist (p n : Fin 32 → Fin 512 → EReal) (s : Fin 32) : EReal :=
  ∑ d : Fin 512, (n s d - anchor p d) * (n s d - anchor p d)

/-- The least squared distance among the negative rows, from +infinity. -/
def nearest (p n : Fin 32 → Fin 512 → EReal) : EReal :=
  (Finset.univ : Finset (Fin 32)).fold min farthest (negDist p n)

/-- One class's loss: over its positive rows, the hinge of distance minus nearest negative plus margin. -/
def classLoss (p n : Fin 32 → Fin 512 → EReal) : EReal :=
  ∑ s : Fin 32, max (posDist p s - nearest p n + margin) 0

/-- The mean of the 1024 class losses. -/
def meanLoss (L : Fin 1024 → EReal) : EReal :=
  Ideal.div (∑ c : Fin 1024, L c) classCount

/-- Class `32 t + k`: the `k`-th class of tile `t`. -/
abbrev classOf (t k : Fin 32) : Fin 1024 := ⟨32 * t.val + k.val, by have := t.isLt; have := k.isLt; omega⟩

/-- Summing tile by tile is summing every class: `(t, k) ↦ 32 t + k` is a bijection from pairs to classes. -/
theorem sum_tiles (L : Fin 1024 → EReal) :
    ∑ t : Fin 32, ∑ k : Fin 32, L (classOf t k) = ∑ c : Fin 1024, L c := by
  rw [← Fintype.sum_prod_type' (f := fun t k => L (classOf t k))]
  refine Fintype.sum_equiv (finProdFinEquiv : Fin 32 × Fin 32 ≃ Fin (32 * 32)) _ _ fun x => ?_
  exact congrArg L (Fin.ext (by simp [finProdFinEquiv]; omega))

/-- The running total: the first term, then one more term per step. -/
def running (B : ℕ → EReal) : ℕ → EReal
  | 0 => B 0
  | n + 1 => running B n + B (n + 1)

theorem running_eq_sum (B : ℕ → EReal) (n : ℕ) : running B n = ∑ t ∈ Finset.range (n + 1), B t := by
  induction n with
  | zero => simp [running]
  | succ n ih => rw [running, ih, Finset.sum_range_succ (n := n + 1)]

/-- After the last of 32 steps the running total of the tiles' sums is the sum over all 1024 classes. -/
theorem running_tiles (L : Fin 1024 → EReal) (B : ℕ → EReal)
    (hB : ∀ t : Fin 32, B t.val = ∑ k : Fin 32, L (classOf t k)) :
    running B 31 = ∑ c : Fin 1024, L c := by
  rw [running_eq_sum, Finset.sum_range (n := 32) B, ← sum_tiles]
  exact Finset.sum_congr rfl fun t _ => hB t

end Cert.LossSpec

end
-- ==== Proof.TileBody.lean ====
/-
  The arithmetic of one grid point, read at the ideal instance.

  At a grid point the body holds one tile: 32 classes, each with its slab of 32 positive rows (the first load)
  and its slab of 32 negative rows (the second load). It adds to the running total it finds in the output
  block the sum, over the tile's 32 classes, of the class loss of `LossSpec`. This module names the stages of
  that computation (the anchor as a [32,1,512] vector, the two [32,32] tables of squared distances, the
  nearest negative per class, the hinge, the per-class sums, the tile's total) and reads each at an index:
  a lane sum is the sum over the reduced coordinate, a lane minimum the fold of `min` from +infinity over it,
  a broadcast or a cast reads its operand at the index with the same coordinates.
-/
import proofs.«137170_j71502615544388_1_alg».proof.Proof.Gen.KernelIdeal.Skeleton
import proofs.«137170_j71502615544388_1_alg».proof.Proof.LossSpec
import Idealize.ShloMosaic.Lib.Pipeline.Value
import Idealize.ShloMosaic.Lib.ValueIdx
import Idealize.ShloMosaic.PureOps.Ideal.Laws

noncomputable section

namespace Cert.KernelIdeal.TileBody

open Cert.KernelIdeal Cert.KernelIdeal.Gen Cert.LossSpec
open Idealize.ShloMosaic Idealize.ShloMosaic.ValueIdx

/-! ## The stages, at any float instance -/

section Stages
variable {F : FTy → Type} [FloatOps F]

/-- The anchors of the tile's classes: the positive slabs summed over their rows, divided by 32. -/
def meanRow (v1 : FVec F S32x32x512 .f32) : FVec F S32x1x512 .f32 :=
  divf (shapeCast S32x1x512 (multiReduction .add [1] S32x512 v1 0x00000000#32 reduces_S32x32x512_S32x512 (.inl rfl) rfl) shapeCasts_S32x512_S32x1x512)
    (broadcast S32x1x512 (Scalar.ofBits .f32 0x42000000#32))

/-- The anchors repeated along the rows. -/
def spread (v1 : FVec F S32x32x512 .f32) : FVec F S32x32x512 .f32 :=
  broadcastTo S32x32x512 (meanRow v1) broadcasts_S32x1x512_S32x32x512

/-- Squared distance from the anchor to each positive row. -/
def posSq (v1 : FVec F S32x32x512 .f32) : FVec F S32x32 .f32 :=
  multiReduction .add [2] S32x32 (mulf (subf (spread v1) v1) (subf (spread v1) v1)) 0x00000000#32 reduces_S32x32x512_S32x32 (.inl rfl) rfl

/-- Squared distance from each negative row to the anchor. -/
def negSq (v1 v3 : FVec F S32x32x512 .f32) : FVec F S32x32 .f32 :=
  multiReduction .add [2] S32x32 (mulf (subf v3 (spread v1)) (subf v3 (spread v1))) 0x00000000#32 reduces_S32x32x512_S32x32 (.inl rfl) rfl

/-- The least negative distance of each class, repeated along the rows. -/
def nearestRow (v1 v3 : FVec F S32x32x512 .f32) : FVec F S32x32 .f32 :=
  broadcastTo S32x32 (shapeCast S32x1 (multiReduction .minimumf [1] S32 (negSq v1 v3) 0x7F800000#32 reduces_S32x32_S32 (.inl rfl) rfl) shapeCasts_S32_S32x1)
    broadcasts_S32x1_S32x32

/-- The hinge of every (class, positive row). -/
def hinge (v1 v3 : FVec F S32x32x512 .f32) : FVec F S32x32 .f32 :=
  maximumf (addf (subf (posSq v1) (nearestRow v1 v3)) (broadcast S32x32 (Scalar.ofBits .f32 0x3E99999A#32)))
    (broadcast S32x32 (Scalar.ofBits .f32 0x00000000#32))

/-- Each class's loss: its hinges summed over the rows. -/
def perClass (v1 v3 : FVec F S32x32x512 .f32) : FVec F S32 .f32 :=
  multiReduction .add [1] S32 (hinge v1 v3) 0x00000000#32 reduces_S32x32_S32 (.inl rfl) rfl

/-- The tile's total: the class losses summed. -/
def tileTotal (v1 v3 : FVec F S32x32x512 .f32) : F .f32 :=
  extractAt ![0, 0] (shapeCast S1x1 (multiReduction .add [1] S1 (shapeCast S1x32 (perClass v1 v3) shapeCasts_S32_S1x32) 0x00000000#32
    reduces_S1x32_S1 (.inl rfl) rfl) shapeCasts_S1_S1x1) inpos_S1x1_p0_0

/-- The body's accumulating payload is the running block plus the tile's total, over the two loaded slabs. -/
theorem pay3_eq (v0 v2 : Vec F S32x1x32x512 .f32) (v32 : Vec F S1x1 .f32) :
    k0_pay3 v0 v2 v32
      = addf (shapeCast S1x1 v32 shapeCasts_S1x1_S1x1)
          (broadcast S1x1 (tileTotal (shapeCast S32x32x512 v0 shapeCasts_S32x1x32x512_S32x32x512)
            (shapeCast S32x32x512 v2 shapeCasts_S32x1x32x512_S32x32x512))) := rfl

end Stages

/-! ## The stages read at an index, at the ideal instance -/

theorem meanRow_apply (v1 : FVec Ideal S32x32x512 .f32) (k : Fin 32) (z : Fin 1) (d : Fin 512) :
    meanRow v1 (ix3 k z d) = Ideal.div (∑ s : Fin 32, v1 (ix3 k s d)) rowCount := by
  show Ideal.div (shapeCast S32x1x512 _ shapeCasts_S32x512_S32x1x512 (ix3 k z d)) rowCount = _
  refine congrArg (Ideal.div · rowCount) ?_
  refine (shapeCast_apply _ shapeCasts_S32x512_S32x1x512 (ix3 k z d) (ix2 k d) ?_).trans ?_
  · rewrite [Shape.rowMajor_val_two, Shape.rowMajor_val_three]
    show k.val * 512 + d.val = (k.val * 1 + z.val) * 512 + d.val
    have := z.isLt; omega
  refine (Ideal.multiReduction_add_single v1 0x00000000#32 reduces_S32x32x512_S32x512 (.inl rfl) rfl (ix2 k d)).trans ?_
  exact Finset.sum_congr rfl fun s _ => congrArg v1 (funext fun a => Fin.ext (by
    match a with | ⟨0, _⟩ => rfl | ⟨1, _⟩ => rfl | ⟨2, _⟩ => rfl))

theorem spread_apply (v1 : FVec Ideal S32x32x512 .f32) (k s : Fin 32) (d : Fin 512) :
    spread v1 (ix3 k s d) = meanRow v1 (ix3 k 0 d) := by
  unfold spread
  exact broadcastTo_apply _ broadcasts_S32x1x512_S32x32x512 (ix3 k s d) (ix3 k 0 d) (fun a => match a with
    | ⟨0, _⟩ => by show k.val = if (32 : Nat) = 1 then 0 else k.val; rw [if_neg (by decide)]
    | ⟨1, _⟩ => by show 0 = if (1 : Nat) = 1 then 0 else s.val; rw [if_pos rfl]
    | ⟨2, _⟩ => by show d.val = if (512 : Nat) = 1 then 0 else d.val; rw [if_neg (by decide)])

theorem posSq_apply (v1 : FVec Ideal S32x32x512 .f32) (k s : Fin 32) :
    posSq v1 (ix2 k s)
      = ∑ d : Fin 512, (meanRow v1 (ix3 k 0 d) - v1 (ix3 k s d)) * (meanRow v1 (ix3 k 0 d) - v1 (ix3 k s d)) := by
  refine (Ideal.multiReduction_add_single _ 0x00000000#32 reduces_S32x32x512_S32x32 (.inl rfl) rfl (ix2 k s)).trans ?_
  refine Finset.sum_congr rfl fun (d : Fin 512) _ => ?_
  have e : reduces_S32x32x512_S32x32.lift (ix2 k s) d = ix3 k s d := funext fun a => Fin.ext (by
    match a with | ⟨0, _⟩ => rfl | ⟨1, _⟩ => rfl | ⟨2, _⟩ => rfl)
  rw [e]
  show (spread v1 (ix3 k s d) - v1 (ix3 k s d)) * (spread v1 (ix3 k s d) - v1 (ix3 k s d)) = _
  rw [spread_apply]

theorem negSq_apply (v1 v3 : FVec Ideal S32x32x512 .f32) (k s : Fin 32) :
    negSq v1 v3 (ix2 k s)
      = ∑ d : Fin 512, (v3 (ix3 k s d) - meanRow v1 (ix3 k 0 d)) * (v3 (ix3 k s d) - meanRow v1 (ix3 k 0 d)) := by
  refine (Ideal.multiReduction_add_single _ 0x00000000#32 reduces_S32x32x512_S32x32 (.inl rfl) rfl (ix2 k s)).trans ?_
  refine Finset.sum_congr rfl fun (d : Fin 512) _ => ?_
  have e : reduces_S32x32x512_S32x32.lift (ix2 k s) d = ix3 k s d := funext fun a => Fin.ext (by
    match a with | ⟨0, _⟩ => rfl | ⟨1, _⟩ => rfl | ⟨2, _⟩ => rfl)
  rw [e]
  show (v3 (ix3 k s d) - spread v1 (ix3 k s d)) * (v3 (ix3 k s d) - spread v1 (ix3 k s d)) = _
  rw [spread_apply]

theorem nearestRow_apply (v1 v3 : FVec Ideal S32x32x512 .f32) (k s : Fin 32) :
    nearestRow v1 v3 (ix2 k s)
      = (Finset.univ : Finset (Fin 32)).fold min farthest (fun s' => negSq v1 v3 (ix2 k s')) := by
  unfold nearestRow
  refine (broadcastTo_apply _ broadcasts_S32x1_S32x32 (ix2 k s) (ix2 k 0) (fun a => match a with
    | ⟨0, _⟩ => by show k.val = if (32 : Nat) = 1 then 0 else k.val; rw [if_neg (by decide)]
    | ⟨1, _⟩ => by show 0 = if (1 : Nat) = 1 then 0 else s.val; rw [if_pos rfl])).trans ?_
  refine (shapeCast_apply _ shapeCasts_S32_S32x1 (ix2 k 0) (ix1 k) ?_).trans ?_
  · rewrite [Shape.rowMajor_val_one, Shape.rowMajor_val_two]
    show k.val = k.val * 1 + 0
    omega
  refine (multiReduction_minimumf_eq_fold (F := Ideal) (negSq v1 v3) 0x7F800000#32 reduces_S32x32_S32 (.inl rfl) rfl (ix1 k)).trans ?_
  refine (reduces_S32x32_S32.fold_filter_drop_single FloatOps.minimumf _ (negSq v1 v3) (ix1 k)).trans ?_
  have hf : (negSq v1 v3 ∘ reduces_S32x32_S32.lift (ix1 k)) = fun s' : Fin 32 => negSq v1 v3 (ix2 k s') :=
    funext fun s' => congrArg (negSq v1 v3) (funext fun a => Fin.ext (by match a with | ⟨0, _⟩ => rfl | ⟨1, _⟩ => rfl))
  exact congrArg (fun f => Finset.fold min farthest f (Finset.univ : Finset (Fin 32))) hf

theorem hinge_apply (v1 v3 : FVec Ideal S32x32x512 .f32) (k s : Fin 32) :
    hinge v1 v3 (ix2 k s) = max (posSq v1 (ix2 k s) - nearestRow v1 v3 (ix2 k s) + margin) 0 := by
  show max (posSq v1 (ix2 k s) - nearestRow v1 v3 (ix2 k s) + margin) (Ideal.ofBits .f32 0x00000000#32) = _
  rw [Ideal.ofBits_zero_f32]

theorem perClass_apply (v1 v3 : FVec Ideal S32x32x512 .f32) (k : Fin 32) :
    perClass v1 v3 (ix1 k) = ∑ s : Fin 32, hinge v1 v3 (ix2 k s) := by
  refine (Ideal.multiReduction_add_single _ 0x00000000#32 reduces_S32x32_S32 (.inl rfl) rfl (ix1 k)).trans ?_
  exact Finset.sum_congr rfl fun s _ => congrArg (hinge v1 v3) (funext fun a => Fin.ext (by
    match a with | ⟨0, _⟩ => rfl | ⟨1, _⟩ => rfl))

theorem tileTotal_eq (v1 v3 : FVec Ideal S32x32x512 .f32) :
    tileTotal v1 v3 = ∑ k : Fin 32, perClass v1 v3 (ix1 k) := by
  unfold tileTotal extractAt
  refine (shapeCast_apply _ shapeCasts_S1_S1x1 _ (ix1 0) ?_).trans ?_
  · rewrite [Shape.rowMajor_val_one, Shape.rowMajor_val_two]
    rfl
  refine (Ideal.multiReduction_add_single _ 0x00000000#32 reduces_S1x32_S1 (.inl rfl) rfl (ix1 0)).trans ?_
  refine Finset.sum_congr rfl fun (k : Fin 32) _ => ?_
  refine (shapeCast_apply _ shapeCasts_S32_S1x32 _ (ix1 k) ?_).trans rfl
  rewrite [Shape.rowMajor_val_one, Shape.rowMajor_val_two]
  show k.val = 0 * 32 + k.val
  omega

/-- A class's stage value is the class loss of its two slabs. -/
theorem perClass_eq_classLoss (v1 v3 : FVec Ideal S32x32x512 .f32) (k : Fin 32) :
    perClass v1 v3 (ix1 k) = classLoss (fun s d => v1 (ix3 k s d)) (fun s d => v3 (ix3 k s d)) := by
  rw [perClass_apply]
  unfold classLoss
  refine Finset.sum_congr rfl fun s _ => ?_
  rw [hinge_apply, posSq_apply, nearestRow_apply]
  simp only [meanRow_apply, negSq_apply]
  rfl

/-- A loaded slab cast to [32,32,512] reads the slab at the same class, row and entry. -/
theorem slab_apply (v : FVec Ideal S32x1x32x512 .f32) (k s : Fin 32) (d : Fin 512) :
    shapeCast S32x32x512 v shapeCasts_S32x1x32x512_S32x32x512 (ix3 k s d) = v (ix4 k 0 s d) := by
  refine shapeCast_apply v shapeCasts_S32x1x32x512_S32x32x512 (ix3 k s d) (ix4 k 0 s d) ?_
  rewrite [Shape.rowMajor_val_four, Shape.rowMajor_val_three]
  show ((k.val * 1 + 0) * 32 + s.val) * 512 + d.val = (k.val * 32 + s.val) * 512 + d.val
  omega

/-- THE TILE: the accumulating payload at an index is the running block there plus the class losses of the
    tile's 32 classes, each over its positive slab (first load) and negative slab (second load). -/
theorem pay3_apply (v0 v2 : Vec Ideal S32x1x32x512 .f32) (v32 : Vec Ideal S1x1 .f32) (j : S1x1.Idx) :
    k0_pay3 (F := Ideal) v0 v2 v32 j
      = v32 j + ∑ k : Fin 32, classLoss (fun s d => v0 (ix4 k 0 s d)) (fun s d => v2 (ix4 k 0 s d)) := by
  rw [pay3_eq]
  show shapeCast S1x1 v32 shapeCasts_S1x1_S1x1 j + tileTotal (F := Ideal) _ _ = _
  rw [shapeCast_self, tileTotal_eq]
  refine congrArg (v32 j + ·) (Finset.sum_congr rfl fun k _ => ?_)
  rw [perClass_eq_classLoss]
  simp only [slab_apply]

end Cert.KernelIdeal.TileBody

end
-- ==== Proof.TileCases.lean ====
/-
  What one grid point leaves in the output block, case by case, at any float instance.

  The body runs in one of three ways. At the first point it stores the zero block, reads it back and stores
  the zero block plus the tile's total. At a middle point it reads the block the point before left and stores
  that block plus the tile's total. At the last point it does the same and then reads the sum back, divides it
  by 1024 and stores the quotient. Each store covers the whole [1,1] block, so the block ends at the last
  store's payload; a load of the block after a store reads that store's payload; and the two slab loads read
  the staged input block through their rectangles (second coordinate 0 for the positive rows, 1 for the
  negative rows).
-/
import proofs.«137170_j71502615544388_1_alg».proof.Proof.Gen.KernelIdeal.Frame
import Idealize.ShloMosaic.Lib.Pipeline.Value
import Idealize.ShloMosaic.Lib.Tactic

set_option maxRecDepth 16384

noncomputable section

namespace Cert.KernelIdeal.TileCases

open Cert.KernelIdeal Cert.KernelIdeal.Gen
open Idealize.ShloMosaic Idealize.ShloMosaic.TcCoe Idealize.SL.Sem Idealize.ShloMosaic.Tactic

variable {F : FTy → Type} [FloatOps F]

theorem zeroOffsets : (![0, 0] : Fin 2 → Nat) = fun _ => 0 := funext fun a => by fin_cases a <;> rfl

/-- The positive slabs of the staged block: what the first load reads. -/
abbrev posLoad (x0 : Vec F S32x2x32x512 .f32) : Vec F S32x1x32x512 .f32 :=
  View.ld x0 (Rect.unit ![0, 0, 0, 0] S32x1x32x512.size inb_S32x2x32x512_S32x1x32x512_0_0_0_0)
/-- The negative slabs: what the second load reads. -/
abbrev negLoad (x0 : Vec F S32x2x32x512 .f32) : Vec F S32x1x32x512 .f32 :=
  View.ld x0 (Rect.unit ![0, 1, 0, 0] S32x1x32x512.size inb_S32x2x32x512_S32x1x32x512_0_1_0_0)

/-- A middle point: the block the point before left, plus the tile's total. -/
theorem out_B (c : Dev nD) (i : grid0.Coords) (a1 : Memref sig .tc .vmem S32x2x32x512 .f32) (h1 : a1.IsWhole)
    (a2 : Memref sig .tc .vmem S1x1 .f32) (h2 : a2.IsWhole) (hc0 : ¬cond0_0 i) (hc1 : ¬cond0_1 i)
    (x0 : Vec F S32x2x32x512 .f32) (xo1 : Vec F S1x1 .f32) :
    out0_B_1 c i a1 h1 a2 h2 hc0 hc1 x0 xo1 = k0_pay3 (posLoad x0) (negLoad x0) xo1 := by
  unfold out0_B_1
  rw [View.read_writes_eq_canon _ _ _ (cover0_B_1 c i a1 h1 a2 h2 hc0 hc1 x0 xo1)]
  unfold kernelRun0_B
  dsimp only
  sl_unfold_words
  rw [View.canon_unit_zero zeroOffsets]
  simp only [View.readAt_eq_ld, h1.read_unread, h2.read_unread, View.ld_unit_zero (S := S1x1) zeroOffsets]

/-- The first point: the zero block plus the tile's total. -/
theorem out_A (c : Dev nD) (i : grid0.Coords) (a1 : Memref sig .tc .vmem S32x2x32x512 .f32) (h1 : a1.IsWhole)
    (a2 : Memref sig .tc .vmem S1x1 .f32) (h2 : a2.IsWhole) (hc0 : cond0_0 i) (hc1 : ¬cond0_1 i)
    (x0 : Vec F S32x2x32x512 .f32) :
    out0_A_1 c i a1 h1 a2 h2 hc0 hc1 x0 = k0_pay3 (posLoad x0) (negLoad x0) (k0_pay2 (F := F)) := by
  unfold out0_A_1
  rw [View.read_writes_eq_canon _ _ _ (cover0_A_1 c i a1 h1 a2 h2 hc0 hc1 x0)]
  unfold kernelRun0_A
  dsimp only
  sl_unfold_words
  rw [View.canon_cons_unit_zero (S := S1x1) zeroOffsets, View.readCov_unit_zero (S := S1x1) _ zeroOffsets]
  simp only [View.readAt_eq_ld, h1.read_unread]

/-- The last point: the block the point before left plus the tile's total, divided by 1024. -/
theorem out_C (c : Dev nD) (i : grid0.Coords) (a1 : Memref sig .tc .vmem S32x2x32x512 .f32) (h1 : a1.IsWhole)
    (a2 : Memref sig .tc .vmem S1x1 .f32) (h2 : a2.IsWhole) (hc0 : ¬cond0_0 i) (hc1 : cond0_1 i)
    (x0 : Vec F S32x2x32x512 .f32) (xo1 : Vec F S1x1 .f32) :
    out0_C_1 c i a1 h1 a2 h2 hc0 hc1 x0 xo1 = k0_pay1 (k0_pay3 (posLoad x0) (negLoad x0) xo1) := by
  unfold out0_C_1
  rw [View.read_writes_eq_canon _ _ _ (cover0_C_1 c i a1 h1 a2 h2 hc0 hc1 x0 xo1)]
  unfold kernelRun0_C
  dsimp only
  sl_unfold_words
  rw [View.canon_cons_unit_zero (S := S1x1) zeroOffsets, View.readCov_unit_zero (S := S1x1) _ zeroOffsets]
  simp only [View.readAt_eq_ld, h1.read_unread, h2.read_unread, View.ld_unit_zero (S := S1x1) zeroOffsets]

end Cert.KernelIdeal.TileCases

end
-- ==== Proof.LossValue.lean ====
/-
  The kernel's result at the ideal instance: the mean class loss of the reshaped argument.

  The region finds the argument reshaped to [1024, 2, 32, 512]. Grid point `t` stages tile `t`: classes
  `32 t` to `32 t + 31`, whole. By the three cases of `TileCases` and the tile arithmetic of `TileBody`,
  the output block after point `n < 31` holds the running total of the tiles' sums up to `n` (point 0 starts it
  from the zero block, `0 + x = x`), and after point 31 that running total divided by 1024. The running total
  after the last tile is the sum over all 1024 classes (`LossSpec.running_tiles`: addition on the extended
  reals commutes and associates, so no finiteness is needed). Point 31 is the only write-back and its [1,1] block
  is the whole result array; the reshape to a scalar after the region reads its one entry.
-/
import proofs.«137170_j71502615544388_1_alg».proof.Proof.TileBody
import proofs.«137170_j71502615544388_1_alg».proof.Proof.TileCases
import Idealize.ShloMosaic.Lib.StableHlo.Run

set_option maxRecDepth 16384

noncomputable section

namespace Cert.KernelIdeal.LossValue

open Cert.KernelIdeal Cert.KernelIdeal.Gen Cert.KernelIdeal.TileCases Cert.KernelIdeal.TileBody Cert.LossSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The array and its tiles -/

/-- The reshaped argument as the region finds it. -/
abbrev arr (c : Dev nD) : Vec Ideal S1024x2x32x512 .f32 := V m c main_v0
/-- The tile staged at point `t`. -/
abbrev tile (c : Dev nD) (t : Fin cfg0.N) : Vec Ideal S32x2x32x512 .f32 := iblk m c 0 t

theorem gridPoints : cfg0.N = 32 := N_0

/-- A grid point as a tile number. -/
abbrev tileNo (t : Fin cfg0.N) : Fin 32 := ⟨t.val, lt_of_lt_of_eq t.isLt gridPoints⟩

/-- The input's block index at point `t` is `(t, 0, 0, 0)`: decided over the grid. -/
theorem blockIndex : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- Entry `(k, b, s, d)` of tile `t` is entry `(32 t + k, b, s, d)` of the array. -/
theorem tile_apply (c : Dev nD) (t : Fin cfg0.N) (k : Fin 32) (b : Fin 2) (s : Fin 32) (d : Fin 512) :
    tile m c t (ix4 k b s d) = arr m c (ix4 (classOf (tileNo t) k) b s d) := by
  obtain ⟨i0, i1, i2, i3⟩ := blockIndex t
  show ((cfg0.win 0).blk t).view.read (Elt Ideal) (V m c (Pipeline.arrRef spec0 0)) (ix4 k b s d) = _
  rw [View.read_apply]
  show V m c main_v0 _ = V m c main_v0 _
  congr 1
  funext a
  apply Fin.ext
  match a with
  | ⟨0, _⟩ => show win0_0.index t 0 * 32 + 1 * k.val = 32 * t.val + k.val; rw [i0]; omega
  | ⟨1, _⟩ => show win0_0.index t 1 * 2 + 1 * b.val = b.val; rw [i1]; omega
  | ⟨2, _⟩ => show win0_0.index t 2 * 32 + 1 * s.val = s.val; rw [i2]; omega
  | ⟨3, _⟩ => show win0_0.index t 3 * 512 + 1 * d.val = d.val; rw [i3]; omega

/-- The region finds the argument reshaped: the one host operation before it. -/
theorem arr_eq (c : Dev nD) :
    arr m c = shapeCast S1024x2x32x512 (m ((c : Thread nD τ).loc main_arg0)) shapeCasts_S65536x512_S1024x2x32x512 := by
  show StableHlo.after hostOps0 (fun b => m (c, b)) (Proc.devRef .tc main_v0) = _
  after_results
  rfl

/-! ## The three payloads at the ideal instance -/

theorem zero_apply (j : S1x1.Idx) : k0_pay2 (F := Ideal) j = 0 := by
  show Ideal.ofBits .f32 0x00000000#32 = 0
  exact Ideal.ofBits_zero_f32

theorem divide_apply (v : Vec Ideal S1x1 .f32) (j : S1x1.Idx) : k0_pay1 (F := Ideal) v j = Ideal.div (v j) classCount := by
  show Ideal.div (shapeCast S1x1 v shapeCasts_S1x1_S1x1 j) classCount = _
  rw [shapeCast_self]

/-- The class losses of a staged tile, summed. -/
def tileSum (x0 : Vec Ideal S32x2x32x512 .f32) : EReal :=
  ∑ k : Fin 32, classLoss (fun s d => x0 (ix4 k 0 s d)) (fun s d => x0 (ix4 k 1 s d))

theorem accumulate_apply (x0 : Vec Ideal S32x2x32x512 .f32) (acc : Vec Ideal S1x1 .f32) (j : S1x1.Idx) :
    k0_pay3 (F := Ideal) (posLoad x0) (negLoad x0) acc j = acc j + tileSum x0 := by
  refine (pay3_apply (posLoad x0) (negLoad x0) acc j).trans ?_
  unfold tileSum
  refine congrArg (acc j + ·) (Finset.sum_congr rfl fun k _ => ?_)
  have hp : ∀ (s : Fin 32) (d : Fin 512), posLoad x0 (ix4 k 0 s d) = x0 (ix4 k 0 s d) := fun s d =>
    congrArg x0 (funext fun a => Fin.ext (by
      match a with
      | ⟨0, _⟩ => show 0 + 1 * k.val = k.val; omega
      | ⟨1, _⟩ => rfl
      | ⟨2, _⟩ => show 0 + 1 * s.val = s.val; omega
      | ⟨3, _⟩ => show 0 + 1 * d.val = d.val; omega))
  have hn : ∀ (s : Fin 32) (d : Fin 512), negLoad x0 (ix4 k 0 s d) = x0 (ix4 k 1 s d) := fun s d =>
    congrArg x0 (funext fun a => Fin.ext (by
      match a with
      | ⟨0, _⟩ => show 0 + 1 * k.val = k.val; omega
      | ⟨1, _⟩ => rfl
      | ⟨2, _⟩ => show 0 + 1 * s.val = s.val; omega
      | ⟨3, _⟩ => show 0 + 1 * d.val = d.val; omega))
  simp only [hp, hn]

/-! ## The output block, point by point -/

/-- The sum of tile `n`'s class losses (zero past the grid, where no point is). -/
def tileTerm (c : Dev nD) (n : ℕ) : EReal := if h : n < cfg0.N then tileSum (tile m c ⟨n, h⟩) else 0

/-- Before the last point the output block holds the running total of the tiles' sums. -/
theorem acc_eq (c : Dev nD) : ∀ (n : ℕ) (h : n < cfg0.N), n < 31 → outsAt0 m c n h = fun _ => running (tileTerm m c) n
  | 0, h, _ => by
    rw [outsAt0_A m c ⟨0, h⟩ rfl (by dsimp only; omega), out_A]
    funext j
    refine (accumulate_apply (tile m c ⟨0, h⟩) (k0_pay2 (F := Ideal)) j).trans ?_
    rw [zero_apply, zero_add]
    show _ = tileTerm m c 0
    unfold tileTerm
    rw [dif_pos h]
  | n + 1, h, hlt => by
    have h0 : ¬(⟨n + 1, h⟩ : Fin cfg0.N).val % 32 = 0 := by dsimp only; omega
    have h1 : ¬(⟨n + 1, h⟩ : Fin cfg0.N).val % 32 = 31 := by dsimp only; omega
    rw [outsAt0_B m c ⟨n + 1, h⟩ h0 h1, out_B]
    funext j
    refine (accumulate_apply (tile m c ⟨n + 1, h⟩) (outsAt0 m c n (Nat.lt_of_succ_lt h)) j).trans ?_
    rw [acc_eq c n (Nat.lt_of_succ_lt h) (by omega)]
    show _ = running (tileTerm m c) n + tileTerm m c (n + 1)
    unfold tileTerm
    rw [dif_pos h]

/-- After the last point it holds the full total divided by 1024. -/
theorem last_eq (c : Dev nD) (h : 31 < cfg0.N) :
    outsAt0 m c 31 h = fun _ => Ideal.div (running (tileTerm m c) 31) classCount := by
  have h0 : ¬(⟨31, h⟩ : Fin cfg0.N).val % 32 = 0 := by dsimp only; omega
  rw [outsAt0_C m c ⟨31, h⟩ h0 rfl, out_C]
  funext j
  refine (divide_apply _ j).trans ?_
  refine congrArg (Ideal.div · classCount) ?_
  refine (accumulate_apply (tile m c ⟨31, h⟩) (outsAt0 m c 30 (Nat.lt_of_succ_lt h)) j).trans ?_
  rw [acc_eq m c 30 (Nat.lt_of_succ_lt h) (by decide)]
  show _ = running (tileTerm m c) 30 + tileTerm m c 31
  unfold tileTerm
  rw [dif_pos h]

/-! ## The result -/

/-- The class loss of class `cl` of the array. -/
abbrev lossOf (c : Dev nD) (cl : Fin 1024) : EReal :=
  classLoss (fun s d => arr m c (ix4 cl 0 s d)) (fun s d => arr m c (ix4 cl 1 s d))

/-- The running total after the last tile is the sum of all the class losses. -/
theorem running_total (c : Dev nD) : running (tileTerm m c) 31 = ∑ cl : Fin 1024, lossOf m c cl := by
  refine running_tiles (lossOf m c) (tileTerm m c) fun t => ?_
  have ht : t.val < cfg0.N := lt_of_lt_of_eq t.isLt gridPoints.symm
  unfold tileTerm
  rw [dif_pos ht]
  unfold tileSum
  refine Finset.sum_congr rfl fun k _ => ?_
  simp only [tile_apply]

/-- The mean class loss, as the contents of the [1,1] result array. -/
abbrev result (c : Dev nD) : Buf (Elt Ideal) ((c : Thread nD τ).loc main_v1) := fun _ => meanLoss (lossOf m c)

/-- The one write-back, at point 31, writes it. -/
theorem flushed_eq (c : Dev nD) (t : Fin cfg0.N) (hf : (cfg0.win 1).flush t = true) :
    (dats m 0 c).flushed 1 t = ((cfg0.win 1).blk t).view.read (Elt Ideal) (result m c) := by
  have hN : cfg0.N = 32 := gridPoints
  have h31 : t.val = 31 := by have := (flush0_1 t).mp hf; have := t.isLt; omega
  obtain rfl : t = ⟨31, by rw [hN]; decide⟩ := Fin.ext h31
  show (cfg0.win 1).cut (grid0.coords _) ((dats m 0 c).after 1 _) = _
  rw [after0_1, last_eq, running_total]
  rfl

/-- The last grid point. -/
abbrev lastPoint : Fin cfg0.N := ⟨31, by rw [gridPoints]; decide⟩

/-- The output's block at the last point starts at (0, 0) and has one entry each way. -/
theorem lastBlock : ∀ a : Fin 2, win0_1.index lastPoint a * win0_1.size a = 0 ∧ win0_1.xsize (grid0.coords lastPoint) a = 1 := by
  decide +kernel

/-- Point 31's block is the whole [1,1] result array, so the array ends holding the mean class loss. -/
theorem final (c : Dev nD) : (dats m 0 c).arrAt 1 cfg0.N = result m c :=
  (dats m 0 c).arrAt_eq_of_cover 1 (result m c) (flushed_eq m c) fun i =>
    ⟨lastPoint, (flush0_1 lastPoint).mpr rfl, by
      show i ∈ ((View.whole main_v1).slice (win0_1.rect lastPoint)).set
      rw [View.set_slice_whole, Rect.mem_set_unit]
      intro a
      obtain ⟨hoff, hext⟩ := lastBlock a
      rw [hoff, hext]
      have hi : (i a : Nat) < 1 := by
        match a with
        | ⟨0, _⟩ => exact (i 0).isLt
        | ⟨1, _⟩ => exact (i 1).isLt
      omega⟩

/-- The scalar result: the one entry of the result array. -/
abbrev scalar (c : Dev nD) : Buf (Elt Ideal) ((c : Thread nD τ).loc main_v2) := fun _ => meanLoss (lossOf m c)

/-- The reshape after the region reads the result array's entry. -/
theorem tail_eq (c : Dev nD) :
    Pipeline.afterTail₀ cfgs (dats m) 0 (V0 m) [hostOps1] c main_v2 = scalar m c := by
  have harr : Pipeline.withArrays (cfgs 0).spec c (V0 m c) (fun w => (dats m 0 c).arrAt w (cfgs 0).N) (Proc.devRef .tc main_v1)
      = result m c :=
    (Pipeline.withArrays_arr spec0 launch0.win.arr_inj c _ _ 1).trans (final m c)
  unfold Pipeline.afterTail₀
  show StableHlo.after hostOps1 _ (Proc.devRef .tc main_v2) = _
  after_results
  funext i
  show shapeCast S_ (Pipeline.withArrays (cfgs 0).spec c (V0 m c) (fun w => (dats m 0 c).arrAt w (cfgs 0).N) (Proc.devRef .tc main_v1))
    shapeCasts_S1x1_S_ i = _
  rw [harr]
  rfl

/-- THE KERNEL'S RUN, READ: every weakly fair execution ends with the scalar result at the mean class loss of the
    reshaped argument, and the two arguments unchanged. -/
theorem run : θ_run defs (onTc (τ := τ) (main (F := Ideal))) ⟨m, fun _ => 0, ρ⟩ fun r => ∀ c : Dev nD,
      r.2.mem ((c.tc : Thread nD τ).loc main_v2) = scalar m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The result over the launch contents of the argument: the array is its reshape. -/
theorem scalar_eq (c : Dev nD) (i : S_.Idx) :
    scalar m c i = meanLoss fun cl => classLoss
      (fun s d => shapeCast S1024x2x32x512 (m ((c : Thread nD τ).loc main_arg0)) shapeCasts_S65536x512_S1024x2x32x512 (ix4 cl 0 s d))
      (fun s d => shapeCast S1024x2x32x512 (m ((c : Thread nD τ).loc main_arg0)) shapeCasts_S65536x512_S1024x2x32x512 (ix4 cl 1 s d)) := by
  show meanLoss (fun cl => classLoss (fun s d => arr m c (ix4 cl 0 s d)) (fun s d => arr m c (ix4 cl 1 s d))) = _
  rw [arr_eq]

end Cert.KernelIdeal.LossValue

end
-- ==== Proof.ReferenceSide.lean ====
/-
  The reference read at the ideal instance: its result is the mean class loss of `LossSpec`.

  The reference reshapes the argument to [1024, 2, 32, 512], slices the positive slabs (second coordinate 0)
  and the negative slabs (second coordinate 1), and computes every class at once: anchors as a [1024,1,512]
  array, the two [1024,32] tables of squared distances, the per-class minimum of the negative table, the hinge,
  its row sums, and the mean over the classes. Each host sum is the initial value 0 plus the sum over the reduced
  coordinate, so with `0 + x = x` every stage is, class by class, the corresponding quantity of `LossSpec`; the
  host's minimum from +infinity over the 32 negative rows is the same fold of `min`.
-/
import proofs.«137170_j71502615544388_1_alg».proof.Proof.Gen.ReferenceIdeal.Run
import proofs.«137170_j71502615544388_1_alg».proof.Proof.Gen.ReferenceIdeal.Read
import proofs.«137170_j71502615544388_1_alg».proof.Proof.LossSpec
import Idealize.ShloMosaic.Lib.ValueIdx
import Idealize.ShloMosaic.PureOps.Ideal.Laws

noncomputable section

namespace Cert.ReferenceIdeal.RefLoss

open Cert.ReferenceIdeal Cert.ReferenceIdeal.Gen Cert.ReferenceIdeal.Read Cert.LossSpec
open Idealize.ShloMosaic Idealize.ShloMosaic.ValueIdx

variable (x0 : (⟨S65536x512, .f32⟩ : BufTy).Contents (Elt Ideal))

/-- The positive slab of class `c`, as rows and entries of the reshaped argument. -/
abbrev posSlab (c : Fin 1024) : Fin 32 → Fin 512 → EReal := fun s d => val_main_v0 (F := Ideal) x0 (ix4 c 0 s d)
/-- The negative slab of class `c`. -/
abbrev negSlab (c : Fin 1024) : Fin 32 → Fin 512 → EReal := fun s d => val_main_v0 (F := Ideal) x0 (ix4 c 1 s d)

/-- The positive rows, sliced and reshaped, read the reshaped argument at second coordinate 0. -/
theorem pos_apply (c : Fin 1024) (s : Fin 32) (d : Fin 512) :
    val_main_v2 (F := Ideal) x0 (ix3 c s d) = posSlab x0 c s d := by
  rw [val_main_v2_apply, val_main_v1_apply]
  refine congrArg (val_main_v0 (F := Ideal) x0) (funext fun a => Fin.ext ?_)
  have hc := c.isLt; have hs := s.isLt; have hd := d.isLt
  match a with
  | ⟨0, _⟩ => show ((c.val * 32 + s.val) * 512 + d.val) / 16384 = c.val; omega
  | ⟨1, _⟩ => rfl
  | ⟨2, _⟩ => show ((c.val * 32 + s.val) * 512 + d.val) / 512 % 32 = s.val; omega
  | ⟨3, _⟩ => show ((c.val * 32 + s.val) * 512 + d.val) % 512 = d.val; omega

/-- The negative rows read it at second coordinate 1. -/
theorem neg_apply (c : Fin 1024) (s : Fin 32) (d : Fin 512) :
    val_main_v4 (F := Ideal) x0 (ix3 c s d) = negSlab x0 c s d := by
  rw [val_main_v4_apply, val_main_v3_apply]
  refine congrArg (val_main_v0 (F := Ideal) x0) (funext fun a => Fin.ext ?_)
  have hc := c.isLt; have hs := s.isLt; have hd := d.isLt
  match a with
  | ⟨0, _⟩ => show ((c.val * 32 + s.val) * 512 + d.val) / 16384 = c.val; omega
  | ⟨1, _⟩ => rfl
  | ⟨2, _⟩ => show ((c.val * 32 + s.val) * 512 + d.val) / 512 % 32 = s.val; omega
  | ⟨3, _⟩ => show ((c.val * 32 + s.val) * 512 + d.val) % 512 = d.val; omega

/-! The indices the host operations read, written by coordinates. -/

theorem idx_rows (c : Fin 1024) (z : Fin 1) (d : Fin 512) (s : Fin 32) :
    idx_main_v5 (idx_main_v6 (ix3 c z d)) s = ix3 c s d :=
  funext fun a => Fin.ext (by match a with | ⟨0, _⟩ => rfl | ⟨1, _⟩ => rfl | ⟨2, _⟩ => rfl)
theorem idx_spread (c : Fin 1024) (s : Fin 32) (d : Fin 512) : idx_main_v9 (ix3 c s d) = ix3 c 0 d :=
  funext fun a => Fin.ext (by match a with | ⟨0, _⟩ => rfl | ⟨1, _⟩ => rfl | ⟨2, _⟩ => rfl)
theorem idx_spread' (c : Fin 1024) (s : Fin 32) (d : Fin 512) : idx_main_v13 (ix3 c s d) = ix3 c 0 d :=
  funext fun a => Fin.ext (by match a with | ⟨0, _⟩ => rfl | ⟨1, _⟩ => rfl | ⟨2, _⟩ => rfl)
theorem idx_entries (c : Fin 1024) (s : Fin 32) (d : Fin 512) : idx_main_v12 (ix2 c s) d = ix3 c s d :=
  funext fun a => Fin.ext (by match a with | ⟨0, _⟩ => rfl | ⟨1, _⟩ => rfl | ⟨2, _⟩ => rfl)
theorem idx_entries' (c : Fin 1024) (s : Fin 32) (d : Fin 512) : idx_main_v16 (ix2 c s) d = ix3 c s d :=
  funext fun a => Fin.ext (by match a with | ⟨0, _⟩ => rfl | ⟨1, _⟩ => rfl | ⟨2, _⟩ => rfl)
theorem idx_hinge (c : Fin 1024) (s : Fin 32) : idx_main_v24 (ix1 c) s = ix2 c s :=
  funext fun a => Fin.ext (by match a with | ⟨0, _⟩ => rfl | ⟨1, _⟩ => rfl)
theorem idx_class (c : Fin 1024) (s : Fin 32) : idx_main_v18 (idx_main_v19 (ix2 c s)) = ix1 c :=
  funext fun a => Fin.ext (by match a with | ⟨0, _⟩ => rfl)

/-- The anchors. -/
theorem anchor_apply (c : Fin 1024) (z : Fin 1) (d : Fin 512) :
    val_main_v8 (F := Ideal) x0 (ix3 c z d) = anchor (posSlab x0 c) d := by
  rw [val_main_v8_apply, val_main_v6_apply, val_main_v5_apply, val_main_v7_apply]
  show Ideal.div (Ideal.ofBits .f32 0x00000000#32 + _) rowCount = _
  rw [Ideal.ofBits_zero_f32, zero_add]
  unfold anchor
  refine congrArg (Ideal.div · rowCount) (Finset.sum_congr rfl fun s _ => ?_)
  rw [idx_rows]
  exact pos_apply x0 c s d

/-- The table of squared distances to the positive rows. -/
theorem posDist_apply (c : Fin 1024) (s : Fin 32) :
    val_main_v12 (F := Ideal) x0 (ix2 c s) = posDist (posSlab x0 c) s := by
  rw [val_main_v12_apply]
  show Ideal.ofBits .f32 0x00000000#32 + _ = _
  rw [Ideal.ofBits_zero_f32, zero_add]
  unfold posDist
  refine Finset.sum_congr rfl fun d _ => ?_
  rw [idx_entries, val_main_v11_apply, val_main_v10_apply, val_main_v9_apply, idx_spread, anchor_apply, pos_apply]
  rfl

/-- The table of squared distances from the negative rows. -/
theorem negDist_apply (c : Fin 1024) (s : Fin 32) :
    val_main_v16 (F := Ideal) x0 (ix2 c s) = negDist (posSlab x0 c) (negSlab x0 c) s := by
  rw [val_main_v16_apply]
  show Ideal.ofBits .f32 0x00000000#32 + _ = _
  rw [Ideal.ofBits_zero_f32, zero_add]
  unfold negDist
  refine Finset.sum_congr rfl fun d _ => ?_
  rw [idx_entries', val_main_v15_apply, val_main_v14_apply, val_main_v13_apply, idx_spread', anchor_apply, neg_apply]
  rfl

/-- The shape fact that names the reduced row of the [1024, 32] table. -/
theorem rowsReduce : S1024x32.Reduces [1] S1024 := by decide

/-- The nearest negative of each class: the host's minimum from +infinity over the 32 rows. -/
theorem nearest_apply (c : Fin 1024) :
    val_main_v17 (F := Ideal) x0 (ix1 c) = nearest (posSlab x0 c) (negSlab x0 c) := by
  unfold val_main_v17
  refine (Host.reduce_eq_fold_single (α := Ideal .f32) (FloatOps.minimumf (F := Ideal) (φ := .f32))
    (val_main_v16 (F := Ideal) x0) (val_main_cst_3 (F := Ideal)) reducesTo_S1024x32_S1024_d1 rowsReduce h_S_ (ix1 c)).trans ?_
  unfold nearest
  have hf : (val_main_v16 (F := Ideal) x0 ∘ rowsReduce.lift (ix1 c)) = negDist (posSlab x0 c) (negSlab x0 c) :=
    funext fun s => (congrArg (val_main_v16 (F := Ideal) x0) (funext fun a => Fin.ext (by
      match a with | ⟨0, _⟩ => rfl | ⟨1, _⟩ => rfl))).trans (negDist_apply x0 c s)
  exact congrArg (fun f => Finset.fold min farthest f (Finset.univ : Finset (Fin 32))) hf

/-- Each class's loss. -/
theorem classLoss_apply (c : Fin 1024) :
    val_main_v24 (F := Ideal) x0 (ix1 c) = classLoss (posSlab x0 c) (negSlab x0 c) := by
  rw [val_main_v24_apply]
  show Ideal.ofBits .f32 0x00000000#32 + _ = _
  rw [Ideal.ofBits_zero_f32, zero_add]
  unfold classLoss
  refine Finset.sum_congr rfl fun s _ => ?_
  rw [idx_hinge, val_main_v23_apply, val_main_v22_apply, val_main_v20_apply, val_main_v19_apply, val_main_v18_apply,
    idx_class, nearest_apply, posDist_apply, val_main_v21_apply, val_main_call0_v0_apply]
  show max (_ - _ + margin) (Ideal.ofBits .f32 0x00000000#32) = _
  rw [Ideal.ofBits_zero_f32]

/-- A rank-1 index set of 1024 entries is `Fin 1024`. -/
def idx1Equiv : S1024.Idx ≃ Fin 1024 where
  toFun j := j 0
  invFun := ix1
  left_inv j := (eq_ix1 j).symm
  right_inv _ := rfl

/-- THE REFERENCE: its result is the mean of the class losses over the slabs of the reshaped argument. -/
theorem result_apply (i : S_.Idx) :
    val_main_v26 (F := Ideal) x0 i = meanLoss fun c => classLoss (posSlab x0 c) (negSlab x0 c) := by
  rw [val_main_v26_apply, val_main_v25_apply]
  show Ideal.div (Ideal.ofBits .f32 0x00000000#32 + _) classCount = _
  rw [Ideal.ofBits_zero_f32, zero_add]
  unfold meanLoss
  refine congrArg (Ideal.div · classCount) ?_
  refine Fintype.sum_equiv idx1Equiv _ _ fun j => ?_
  rw [eq_ix1 j]
  exact classLoss_apply x0 (j 0)

end Cert.ReferenceIdeal.RefLoss

end
-- ==== Proof.lean ====
/-
  A batch triplet loss, tiled over a grid, against its whole-array reference: equal over the extended reals.

  The argument is 65536 rows of 512 floats, read as 1024 classes of two slabs (32 positive rows, 32 negative rows).
  For each class the anchor is the mean of the positive rows; the class's loss is the sum over its positive rows
  of max(|anchor - row|^2 - min over negative rows of |row - anchor|^2 + margin, 0); the result is the mean of
  the 1024 class losses (`LossSpec`). The integer argument is read by neither program.

  The kernel walks 32 grid points, one tile of 32 classes each, and keeps one [1,1] output block across them:
  the first point resets it to zero, every point adds its tile's total, the last point divides by 1024 and the
  block is written back once (`TileCases`, `TileBody`, `LossValue`). The reference computes every class at once
  with host reductions (`ReferenceSide`). Both are the same function of the argument because sums on the extended
  reals may be regrouped freely: 32 tile totals of 32 classes each, accumulated in order from zero, are the sum of
  all 1024 class losses. No law used here needs finiteness, so the precondition is never opened.

  The three frames are the generated frame runs (the reference's is its generated run with the result dropped),
  and the ideal pass rewrote nothing, so there is nothing to preserve.
-/
import proofs.«137170_j71502615544388_1_alg».proof.Defs
import proofs.«137170_j71502615544388_1_alg».proof.Proof.Gen.Kernel
import proofs.«137170_j71502615544388_1_alg».proof.Proof.Gen.Kernel.Skeleton
import proofs.«137170_j71502615544388_1_alg».proof.Proof.Gen.Kernel.Launch
import proofs.«137170_j71502615544388_1_alg».proof.Proof.Gen.Kernel.Points
import proofs.«137170_j71502615544388_1_alg».proof.Proof.Gen.Kernel.Frame
import proofs.«137170_j71502615544388_1_alg».proof.Proof.Gen.KernelIdeal
import proofs.«137170_j71502615544388_1_alg».proof.Proof.Gen.KernelIdeal.Skeleton
import proofs.«137170_j71502615544388_1_alg».proof.Proof.Gen.KernelIdeal.Launch
import proofs.«137170_j71502615544388_1_alg».proof.Proof.Gen.KernelIdeal.Points
import proofs.«137170_j71502615544388_1_alg».proof.Proof.Gen.KernelIdeal.Frame
import proofs.«137170_j71502615544388_1_alg».proof.Proof.Gen.ReferenceIdeal
import proofs.«137170_j71502615544388_1_alg».proof.Proof.Gen.ReferenceIdeal.Run
import proofs.«137170_j71502615544388_1_alg».proof.Proof.Gen.ReferenceIdeal.Read
import proofs.«137170_j71502615544388_1_alg».proof.Proof.Gen.Pre_finite_inputs
import proofs.«137170_j71502615544388_1_alg».proof.Proof.LossValue
import proofs.«137170_j71502615544388_1_alg».proof.Proof.ReferenceSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end at the mean class loss of the reshaped argument: the kernel's scalar by
    `LossValue.run` and `scalar_eq`, the reference's by its generated run and `RefLoss.result_apply`; the two
    reshapes of arguments that agree are the same array. -/
theorem algebraic : Cert.algebraic_KernelIdeal_ReferenceIdeal := by
  intro m ρ m' ρ' _ hagree
  refine ⟨Cert.KernelIdeal.LossValue.scalar m, Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1]
  funext i
  rw [Cert.ReferenceIdeal.RefLoss.result_apply]
  exact (Cert.KernelIdeal.LossValue.scalar_eq m c i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
